-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_cst_3 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_v11 : Ref sig .tc := ⟨.hbm, 25, rfl⟩
abbrev main_cst_6 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.HardSign.lean ====
/-
  The weight map of a binary dense layer, on the extended reals.

  A weight `w` is sent to `2 · round(clamp((w + 1)/2, 0, 1)) - 1`, rounding to nearest with ties to even: the value is
  `-1` or `+1` on the reals. The kernel spells the half as a product with `0.5`; the reference divides `w` by `1`, the
  sum by `2`, and multiplies the result by `1`. Division by a nonzero real constant is the product with its reciprocal at
  every extended real, the infinities included, and `1` is neutral for the product, so the two spellings are one function.
  The layer's output at `(b, o)` is the sum over the input features `k` of `x (b, k)` times the mapped weight `(o, k)`.
-/
import Idealize.ShloMosaic.Lib.ValueIdx
import Idealize.ShloMosaic.PureOps.Ideal.Laws

noncomputable section

open scoped BigOperators

namespace Cert.BinaryDense

open Idealize.ShloMosaic Idealize.ShloMosaic.ValueIdx

/-- The word of `1.0` denotes the real one. -/
theorem word_one : Ideal.ofBits .f32 0x3F800000#32 = 1 := by
  simp [Ideal.ofBits, Ideal.ieee, -EReal.coe_mul]; norm_num

/-- The word of `2.0` denotes the real two. -/
theorem word_two : Ideal.ofBits .f32 0x40000000#32 = ((2 : ℝ) : EReal) := by
  simp [Ideal.ofBits, Ideal.ieee, -EReal.coe_mul]; norm_num

/-- The word of `0.5` denotes the real one half. -/
theorem word_half : Ideal.ofBits .f32 0x3F000000#32 = ((1 / 2 : ℝ) : EReal) := by
  simp [Ideal.ofBits, Ideal.ieee, -EReal.coe_mul]; norm_num

/-- The mapped weight, in the kernel's spelling: `2 · round(min 1 (max 0 ((w + 1) · 0.5))) - 1`. -/
def hardSign (w : EReal) : EReal :=
  Ideal.ofBits .f32 0x40000000#32 * Ideal.liftRound Ideal.roundHalfEven
      (min (Ideal.ofBits .f32 0x3F800000#32) (max (Ideal.ofBits .f32 0x00000000#32)
        ((w + Ideal.ofBits .f32 0x3F800000#32) * Ideal.ofBits .f32 0x3F000000#32)))
    - Ideal.ofBits .f32 0x3F800000#32

/-- The reference's spelling, with its two quotients and its final product with one, is the same function. -/
theorem hardSign_of_quotients (w : EReal) :
    (Ideal.ofBits .f32 0x40000000#32 * Ideal.liftRound Ideal.roundHalfEven
        (min (Ideal.ofBits .f32 0x3F800000#32) (max (Ideal.ofBits .f32 0x00000000#32)
          (Ideal.div (Ideal.div w (Ideal.ofBits .f32 0x3F800000#32) + Ideal.ofBits .f32 0x3F800000#32)
            (Ideal.ofBits .f32 0x40000000#32))))
      - Ideal.ofBits .f32 0x3F800000#32) * Ideal.ofBits .f32 0x3F800000#32 = hardSign w := by
  have d1 : Ideal.div w 1 = w := by
    have h := Ideal.div_coe (y := 1) one_ne_zero w
    rw [EReal.coe_one] at h
    rw [h, div_one, EReal.coe_one, mul_one]
  have d2 : ∀ v : EReal, Ideal.div v ((2 : ℝ) : EReal) = v * ((1 / 2 : ℝ) : EReal) :=
    fun v => Ideal.div_coe two_ne_zero v
  unfold hardSign
  rw [word_one, word_two, word_half, d1, d2, mul_one]

/-- The layer's output as one function of the two arrays: at `(b, o)` the sum over the 4096 input features. -/
def dense (x : FVec Ideal ⟨2, ![8192, 4096]⟩ .f32) (w : FVec Ideal ⟨2, ![4096, 4096]⟩ .f32) :
    FVec Ideal ⟨2, ![8192, 4096]⟩ .f32 :=
  fun j => ∑ k : Fin 4096, x (ix2 (j 0) k) * hardSign (w (ix2 (j 1) k))

end Cert.BinaryDense

end
-- ==== Proof.RefValue.lean ====
/-
  The reference's result is the layer's output `dense`.

  The reference maps every weight through its own spelling of the weight map (two quotients and a product with one, which
  is `hardSign`: `hardSign_of_quotients`) and contracts the last axes of `x` and of the mapped weights: at `(b, o)` the sum
  over the features `k` of `x (b, k)` times the mapped weight `(o, k)`.
-/
import proofs.«125927_j50861002719489_1_alg».proof.Proof.Gen.ReferenceIdeal.Read
import proofs.«125927_j50861002719489_1_alg».proof.Proof.HardSign

noncomputable section

open scoped BigOperators

namespace Cert.ReferenceIdeal.RefValue

open Cert.ReferenceIdeal Cert.ReferenceIdeal.Read Idealize.ShloMosaic Idealize.ShloMosaic.ValueIdx Cert.BinaryDense

/-- The mapped weight array, at an index, is `hardSign` of the weight there. -/
theorem weight_apply (w : FVec Ideal S4096x4096 .f32) (i : S4096x4096.Idx) :
    val_main_v13 (F := Ideal) w i = hardSign (w i) := by
  simp only [val_main_v13_apply, val_main_v12_apply, val_main_cst_6_apply, val_main_v11_apply, val_main_v10_apply,
    val_main_cst_5_apply, val_main_v9_apply, val_main_v8_apply, val_main_cst_4_apply, val_main_v7_apply, val_main_v6_apply,
    val_main_call0_v4_apply, val_main_call0_v3_apply, val_main_cst_3_apply, val_main_call0_v2_apply, val_main_call0_v1_apply,
    val_main_call0_v0_apply, val_main_cst_2_apply, val_main_v5_apply, val_main_v4_apply, val_main_cst_1_apply,
    val_main_v3_apply, val_main_v2_apply, val_main_cst_0_apply, val_main_v1_apply, val_main_v0_apply, val_main_cst_apply,
    Ideal.mulf_def, Ideal.subf_def, Ideal.addf_def, Ideal.hostDivf_def, Ideal.minimumf_def, Ideal.maximumf_def,
    Ideal.hostUnary_roundeven_def, Ideal.ofBits_def]
  exact hardSign_of_quotients (w i)

/-- The reference's last stage is `dense` of the two arguments. -/
theorem result_eq (x : FVec Ideal S8192x4096 .f32) (w : FVec Ideal S4096x4096 .f32) :
    val_main_v14 (F := Ideal) x w = dense x w := by
  funext i
  rw [val_main_v14_apply]
  unfold dense
  refine Finset.sum_congr rfl fun k _ => ?_
  rw [weight_apply]
  have el : lidx_main_v14 i k = ix2 (i 0) k :=
    funext fun a => Fin.ext (by match a with | ⟨0, _⟩ => rfl | ⟨1, _⟩ => rfl)
  have er : ridx_main_v14 i k = ix2 (i 1) k :=
    funext fun a => Fin.ext (by match a with | ⟨0, _⟩ => rfl | ⟨1, _⟩ => rfl)
  rw [el, er]
  rfl

end Cert.ReferenceIdeal.RefValue

end
-- ==== Proof.Pieces.lean ====
/-
  What one grid point leaves in the accumulator and in the output block.

  Every point adds, to what the accumulator holds, the product of its `x` block with the mapped weight block (the payload
  `k0_pay2` of the weight block, the `x` block and the accumulator's contents). At the first point of a run over the
  feature axis the accumulator is first reset to the zero block (`k0_pay1`), so that point leaves the step applied to zero;
  at every later point the step is applied to what the point before left; and at the last point of the run the output block
  is stored from the accumulator just written, so it holds the same value.
-/
import proofs.«125927_j50861002719489_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a run: the accumulator is reset to zero and then stepped. -/
theorem acc_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (x0 x1 : Vec F S1024x512 .f32) :
    sout0_A_0 c i arg3 harg3 arg4 harg4 arg5 harg5 arg6 harg6 hc0 hc1 x0 x1 = k0_pay2 x1 x0 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz]

/-- A middle point of a run: the accumulator the point before left, stepped. -/
theorem acc_mid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i) (x0 x1 : Vec F S1024x512 .f32) (xs0 : Vec F S1024x1024 .f32) :
    sout0_B_0 c i arg3 harg3 arg4 harg4 arg5 harg5 arg6 harg6 hc0 hc1 x0 x1 xs0 = k0_pay2 x1 x0 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread,
    View.ld_unit_zero (S := S1024x512) hz, View.ld_unit_zero (S := S1024x1024) hz]

/-- The last point of a run: the same step; -/
theorem acc_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (x0 x1 : Vec F S1024x512 .f32) (xs0 : Vec F S1024x1024 .f32) :
    sout0_C_0 c i arg3 harg3 arg4 harg4 arg5 harg5 arg6 harg6 hc0 hc1 x0 x1 xs0 = k0_pay2 x1 x0 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread,
    View.ld_unit_zero (S := S1024x512) hz, View.ld_unit_zero (S := S1024x1024) hz]

/-- and the output block stored there is the accumulator just written. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (x0 x1 : Vec F S1024x512 .f32) (xs0 : Vec F S1024x1024 .f32) :
    out0_C_2 c i arg3 harg3 arg4 harg4 arg5 harg5 arg6 harg6 hc0 hc1 x0 x1 xs0 = k0_pay2 x1 x0 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread,
    View.ld_unit_zero (S := S1024x512) hz, View.ld_unit_zero (S := S1024x1024) hz]

end Cert.KernelIdeal.Pieces

end
-- ==== Proof.LibTransposedDot.lean ====
/-
  A matrix product whose right operand is contracted on its SECOND axis, read at coordinates.

  `DotDims.transposedRhs M K N` are the dimension numbers of an `M×K` by `N×K` product: both operands are contracted on
  their second axis, no batch axis: the left operand times the transpose of the right. At the ideal instance such a product,
  whether it is the kernel's `tpu.matmul` into a zero accumulator or the host's `dot_general`, is at the output index
  `(r, c)` the sum over `k : Fin K` of `A (r, k) * B (c, k)` on the extended reals.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl j _).trans hk

/-- The right operand's index at output index `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl j _).trans hk

/-- The kernel's product into a zero accumulator, at an output index: the sum over the shared axis. -/
theorem matmul_zero_apply (prec : Option ContractPrecision) (A : FVec Ideal ⟨2, ![M, K]⟩ .f32) (B : FVec Ideal ⟨2, ![N, K]⟩ .f32)
    (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![N, K]⟩ .f32) (j : (⟨2, ![M, N]⟩ : Shape).Idx) :
    FloatOps.dotGeneral (DotDims.transposedRhs M K N) prec sched A B j = ∑ k : Fin K, A (ix2 (j 0) k) * B (ix2 (j 1) k) := by
  rw [Ideal.dotGeneral_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.LibTransposedDotAny.lean ====
/-
  A matrix product whose right operand is contracted on its SECOND axis, into a zero accumulator, read at coordinates at any
  two operand formats.

  At the ideal instance a change of float format is the identity, so the kernel's `tpu.matmul` of operands narrowed to
  another format (bf16, say) into a zero f32 accumulator is, at the output index `(r, c)`, the same sum over `k : Fin K` of
  `A (r, k) * B (c, k)` on the extended reals as the product of f32 operands. The dimension numbers are
  `DotDims.transposedRhs M K N`: an `M×K` by `N×K` product, both operands contracted on their second axis, no batch axis.
-/
import proofs.«125927_j50861002719489_1_alg».proof.Proof.LibTransposedDot

noncomputable section

open scoped BigOperators

namespace Idealize.ShloMosaic.TransposedDot

open Idealize.ShloMosaic Idealize.ShloMosaic.ValueIdx

variable (M K N : Nat)

/-- The kernel's product into a zero accumulator at any two operand formats, at an output index: the sum over the shared
    axis. -/
theorem matmul_zero_apply_any {φ₁ φ₂ : FTy} (prec : Option ContractPrecision) (A : FVec Ideal ⟨2, ![M, K]⟩ φ₁)
    (B : FVec Ideal ⟨2, ![N, K]⟩ φ₂) (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.Step.lean ====
/-
  One grid point's step of the accumulator, read at an index, on the extended reals.

  The reset block is zero everywhere. The step adds to the accumulator, at `(p, q)`, the sum over the 512 features `r` of the
  point's block of `x (p, r)` times the mapped weight `(q, r)`: the two narrowings to bf16 are the identity on the extended
  reals, the product into a zero accumulator contracts the second axes of its two operands, and the weight block enters only
  through `hardSign`, entry by entry.
-/
import proofs.«125927_j50861002719489_1_alg».proof.Proof.Gen.KernelIdeal.Skeleton
import proofs.«125927_j50861002719489_1_alg».proof.Proof.HardSign
import proofs.«125927_j50861002719489_1_alg».proof.Proof.LibTransposedDotAny
import Idealize.ShloMosaic.Lib.Pipeline.Value

noncomputable section

open scoped BigOperators

namespace Cert.KernelIdeal.Step

open Cert.KernelIdeal Cert.KernelIdeal.Gen Idealize.ShloMosaic Idealize.ShloMosaic.ValueIdx Cert.BinaryDense

/-- The reset block is zero at every index. -/
theorem reset_apply (j : S1024x1024.Idx) : k0_pay1 (F := Ideal) j = 0 := by
  unfold k0_pay1
  rw [shapeCast_self]
  exact Ideal.ofBits_zero_f32

/-- The step at `(p, q)`: the accumulator's entry plus the block's 512 products. -/
theorem step_apply (wb xb : FVec Ideal S1024x512 .f32) (acc : FVec Ideal S1024x1024 .f32) (p q : Fin 1024) :
    k0_pay2 (F := Ideal) wb xb acc (ix2 p q) = acc (ix2 p q) + ∑ r : Fin 512, xb (ix2 p r) * hardSign (wb (ix2 q r)) := by
  unfold k0_pay2
  rw [shapeCast_self]
  refine congrArg (fun z => acc (ix2 p q) + z) ?_
  refine (TransposedDot.matmul_zero_apply_any 1024 512 1024 none _ _ (ix2 p q)).trans ?_
  refine Finset.sum_congr rfl fun r _ => ?_
  rfl

end Cert.KernelIdeal.Step

end
-- ==== Proof.Accumulate.lean ====
/-
  The accumulator over a run of eight grid points, on the extended reals.

  The grid is 8 × 4 × 8: point `n` has row tile `n / 32`, column tile `n / 8 % 4` and feature block `n % 8`. Its `x` block
  holds rows `1024 · (n / 32) + p` and features `512 · (n % 8) + r` of `x`; its weight block rows `1024 · (n / 8 % 4) + q` and
  the same features of the weights. The point adds to the accumulator, at `(p, q)`, the sum over `r` of the `x` entry times the
  mapped weight entry (`addend`). The accumulator is reset at the points with `n % 8 = 0`, so after point `t` it holds, at each
  index, zero plus the sum of the addends of the points `8 · (t / 8) … t`; and at the points with `t % 8 = 7` the output block
  is the accumulator.
-/
import proofs.«125927_j50861002719489_1_alg».proof.Proof.Gen.KernelIdeal.Value
import proofs.«125927_j50861002719489_1_alg».proof.Proof.Pieces
import proofs.«125927_j50861002719489_1_alg».proof.Proof.Step

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Value Idealize.ShloMosaic.ValueIdx Cert.BinaryDense

variable (m : (ℓ : Loc nD τ sig) → Buf (Elt Ideal) ℓ)

/-- The two argument arrays as the region finds them, and a point's two input blocks, at their literal types. -/
abbrev xarr (c : Dev nD) : FVec Ideal S8192x4096 .f32 := V m c main_arg0
abbrev warr (c : Dev nD) : FVec Ideal S4096x4096 .f32 := V m c main_arg1
abbrev xblk (c : Dev nD) (t : Fin cfg0.N) : FVec Ideal S1024x512 .f32 := iblk m c 0 t
abbrev wblk (c : Dev nD) (t : Fin cfg0.N) : FVec Ideal S1024x512 .f32 := iblk m c 1 t

/-- Entry `(i, j)` of an array at natural coordinates (zero outside the array: never used there). -/
def entry {a b : ℕ} (A : FVec Ideal ⟨2, ![a, b]⟩ .f32) (i j : ℕ) : EReal :=
  if h : i < a ∧ j < b then A (ix2 ⟨i, h.1⟩ ⟨j, h.2⟩) else 0

theorem entry_ix2 {a b : ℕ} (A : FVec Ideal ⟨2, ![a, b]⟩ .f32) (i : Fin a) (j : Fin b) :
    entry A i.val j.val = A (ix2 i j) := by
  unfold entry
  rw [dif_pos ⟨i.isLt, j.isLt⟩]

/-- The block indices of the three windows at a point, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = t.val / 8 % 4 :=
  (by decide +kernel : ∀ t : Fin grid0.N, _)

/-- The `x` block of point `t` at `(p, r)` is `x` at row `1024 · (t / 32) + p`, feature `512 · (t % 8) + r`. -/
theorem xblk_apply (c : Dev nD) (t : Fin cfg0.N) (p : Fin 1024) (r : Fin 512) :
    xblk m c t (ix2 p r) = entry (xarr m c) (1024 * (t.val / 32) + p.val) (512 * (t.val % 8) + r.val) := by
  have hN : t.val < 256 := lt_of_lt_of_eq t.isLt (show cfg0.N = 256 from N_0)
  obtain ⟨e0, e1, -, -, -, -⟩ := idx_facts t
  have hp := p.isLt
  have hr := r.isLt
  unfold entry
  rw [dif_pos ⟨by omega, by omega⟩]
  show iblk m c 0 t (ix2 p r) = _
  unfold iblk
  rw [View.read_apply]
  show V m c main_arg0 _ = V m c main_arg0 _
  congr 1
  funext a
  apply Fin.ext
  match a with
  | ⟨0, _⟩ => show win0_0.index t (0 : Fin 2) * 1024 + 1 * p.val = 1024 * (t.val / 32) + p.val; rw [e0]; omega
  | ⟨1, _⟩ => show win0_0.index t (1 : Fin 2) * 512 + 1 * r.val = 512 * (t.val % 8) + r.val; rw [e1]; omega

/-- The weight block of point `t` at `(q, r)` is the weights at row `1024 · (t / 8 % 4) + q`, feature `512 · (t % 8) + r`. -/
theorem wblk_apply (c : Dev nD) (t : Fin cfg0.N) (q : Fin 1024) (r : Fin 512) :
    wblk m c t (ix2 q r) = entry (warr m c) (1024 * (t.val / 8 % 4) + q.val) (512 * (t.val % 8) + r.val) := by
  have hN : t.val < 256 := lt_of_lt_of_eq t.isLt (show cfg0.N = 256 from N_0)
  obtain ⟨-, -, e2, e3, -, -⟩ := idx_facts t
  have hq := q.isLt
  have hr := r.isLt
  unfold entry
  rw [dif_pos ⟨by omega, by omega⟩]
  show iblk m c 1 t (ix2 q r) = _
  unfold iblk
  rw [View.read_apply]
  show V m c main_arg1 _ = V m c main_arg1 _
  congr 1
  funext a
  apply Fin.ext
  match a with
  | ⟨0, _⟩ => show win0_1.index t (0 : Fin 2) * 1024 + 1 * q.val = 1024 * (t.val / 8 % 4) + q.val; rw [e2]; omega
  | ⟨1, _⟩ => show win0_1.index t (1 : Fin 2) * 512 + 1 * r.val = 512 * (t.val % 8) + r.val; rw [e3]; omega

/-- What point `n` adds to the accumulator at index `j`: its 512 products. -/
def addend (c : Dev nD) (n : ℕ) (j : S1024x1024.Idx) : EReal :=
  ∑ r : Fin 512, entry (xarr m c) (1024 * (n / 32) + (j 0).val) (512 * (n % 8) + r.val)
    * hardSign (entry (warr m c) (1024 * (n / 8 % 4) + (j 1).val) (512 * (n % 8) + r.val))

/-- The step of point `n`, on any accumulator, at an index: the accumulator's entry plus the point's addend. -/
theorem step_at (c : Dev nD) (n : ℕ) (h : n < cfg0.N) (acc : FVec Ideal S1024x1024 .f32) (j : S1024x1024.Idx) :
    k0_pay2 (F := Ideal) (wblk m c ⟨n, h⟩) (xblk m c ⟨n, h⟩) acc j = acc j + addend m c n j := by
  obtain ⟨p, q, rfl⟩ : ∃ (p : Fin 1024) (q : Fin 1024), j = ix2 p q := ⟨j 0, j 1, eq_ix2 j⟩
  refine (Step.step_apply (wblk m c ⟨n, h⟩) (xblk m c ⟨n, h⟩) acc p q).trans ?_
  refine congrArg (fun z => acc (ix2 p q) + z) ?_
  unfold addend
  refine Finset.sum_congr rfl fun r _ => ?_
  rw [xblk_apply m c ⟨n, h⟩ p r, wblk_apply m c ⟨n, h⟩ q r]

/-- A point with `n % 8 = 0` leaves, whatever the accumulator held, zero plus its addend. -/
theorem first_at (c : Dev nD) (n : ℕ) (h : n < cfg0.N) (h0 : n % 8 = 0) (acc : FVec Ideal S1024x1024 .f32)
    (j : S1024x1024.Idx) : scAt0_0 m c n h acc j = 0 + addend m c n j := by
  have h1 : ¬n % 8 = 7 := by omega
  unfold scAt0_0
  rw [dif_pos h0, dif_neg h1]
  refine (congrFun (Pieces.acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (xblk m c ⟨n, h⟩) (wblk m c ⟨n, h⟩)) j).trans ?_
  refine (step_at m c n h (k0_pay1 (F := Ideal)) j).trans ?_
  rw [Step.reset_apply]

/-- A point with `n % 8 ≠ 0` leaves the accumulator's entry plus its addend. -/
theorem later_at (c : Dev nD) (n : ℕ) (h : n < cfg0.N) (h0 : ¬n % 8 = 0) (acc : FVec Ideal S1024x1024 .f32)
    (j : S1024x1024.Idx) : scAt0_0 m c n h acc j = acc j + addend m c n j := by
  unfold scAt0_0
  rw [dif_neg h0]
  by_cases h1 : n % 8 = 7
  · rw [dif_pos h1]
    exact (congrFun (Pieces.acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (xblk m c ⟨n, h⟩) (wblk m c ⟨n, h⟩) acc) j).trans (step_at m c n h acc j)
  · rw [dif_neg h1]
    exact (congrFun (Pieces.acc_mid (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (xblk m c ⟨n, h⟩) (wblk m c ⟨n, h⟩) acc) j).trans (step_at m c n h acc j)

/-- THE ACCUMULATOR after point `t`, at an index: zero plus the addends of its run's points up to `t`. -/
theorem scratch_apply (c : Dev nD) (t : Fin cfg0.N) (j : S1024x1024.Idx) :
    (outsAt0 m c t.val t.isLt).2 j = 0 + ∑ s ∈ Finset.range (t.val % 8 + 1), addend m c (8 * (t.val / 8) + s) j := by
  rw [soutsAt0_0_eq m c t]
  exact Pipeline.accAt_add_apply _ _ (fun _ => (0 : EReal)) (addend m c) (8 * (t.val / 8)) 7
    (fun h i => first_at m c _ h (by omega) _ i)
    (fun n h acc i hlo hhi => later_at m c n h (by omega) acc i)
    (t.val % 8) (by omega) _ j

/-- At a point with `t % 8 = 7` the output block is the accumulator the point leaves. -/
theorem out_eq_scratch (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  exact (Pieces.out_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h7) (iblk m c 0 t) (iblk m c 1 t) _).trans
    (Pieces.acc_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h7) (iblk m c 0 t) (iblk m c 1 t) _).symm

end Cert.KernelIdeal.Acc

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.KernelValue.lean ====
/-
  The kernel's result array is the layer's output `dense`.

  The output block of row tile `i` and column tile `j` is written back once, at the last of the eight points of its run, and
  it then holds, at `(p, q)`, the eight points' addends: the sum over the feature blocks `s` and the features `r` inside a block
  of `x (1024 i + p, 512 s + r)` times the mapped weight `(1024 j + q, 512 s + r)`. A sum over 4096 indices is the double sum
  over 8 runs of 512 consecutive indices, so this is `dense` at `(1024 i + p, 1024 j + q)`. Every index of the output array
  lies in exactly such a block, so after the run the array is `dense` of the two argument arrays.
-/
import proofs.«125927_j50861002719489_1_alg».proof.Proof.Accumulate
import proofs.«125927_j50861002719489_1_alg».proof.Proof.LibSumSplit

noncomputable section

open scoped BigOperators

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Value Cert.KernelIdeal.Acc Idealize.ShloMosaic.ValueIdx
open Cert.BinaryDense

variable (m : (ℓ : Loc nD τ sig) → Buf (Elt Ideal) ℓ) (ρ : Dev nD → PrngReg)

/-- The eight addends of the run that starts at point `b`, at `(p, q)`, are the 4096 products of `dense` at the block's
    row `R` and column `C`. -/
theorem run_sum (c : Dev nD) (b : ℕ) (hb : b % 8 = 0) (p q : Fin 1024) (R : Fin 8192) (C : Fin 4096)
    (hR : R.val = 1024 * (b / 32) + p.val) (hC : C.val = 1024 * (b / 8 % 4) + q.val) :
    ∑ s ∈ Finset.range 8, addend m c (b + s) (ix2 p q) = dense (xarr m c) (warr m c) (ix2 R C) := by
  refine Eq.trans ?_ (Cert.SumSplit.sum_split 8 512 4096 rfl
    (fun k : Fin 4096 => xarr m c (ix2 R k) * hardSign (warr m c (ix2 C k)))).symm
  rw [Finset.sum_range]
  refine Finset.sum_congr rfl fun s _ => ?_
  unfold addend
  refine Finset.sum_congr rfl fun r _ => ?_
  have hs := s.isLt
  have e1 : (b + s.val) / 32 = b / 32 := by omega
  have e2 : (b + s.val) / 8 % 4 = b / 8 % 4 := by omega
  have e3 : (b + s.val) % 8 = s.val := by omega
  rw [e1, e2, e3]
  have hk : 512 * s.val + r.val < 4096 := Cert.SumSplit.lt_of_run (by norm_num : 8 * 512 = 4096) s r
  have ex := entry_ix2 (xarr m c) R ⟨512 * s.val + r.val, hk⟩
  have ew := entry_ix2 (warr m c) C ⟨512 * s.val + r.val, hk⟩
  rw [hR] at ex
  rw [hC] at ew
  exact congrArg₂ (fun u v => u * hardSign v) ex ew

/-- WHAT A WRITE-BACK WRITES: at a point that writes the output block back, the block is that block of `dense`. -/
theorem flushed_eq (c : Dev nD) (t : Fin cfg0.N) (hf : (cfg0.win 2).flush t = true) :
    (dats m 0 c).flushed 2 t = ((cfg0.win 2).blk t).view.read (Elt Ideal) (dense (xarr m c) (warr m c)) := by
  have h7 : t.val % 8 = 7 := (flush0_2 t).mp hf
  have hN : t.val < 256 := lt_of_lt_of_eq t.isLt (show cfg0.N = 256 from N_0)
  obtain ⟨-, -, -, -, e4, e5⟩ := idx_facts t
  rw [Value.flushed2 m c t, out_eq_scratch m c t h7]
  funext j
  obtain ⟨p, q, rfl⟩ : ∃ (p : Fin 1024) (q : Fin 1024), j = ix2 p q := ⟨j 0, j 1, eq_ix2 j⟩
  have hp := p.isLt
  have hq := q.isLt
  show (outsAt0 m c t.val t.isLt).2 (ix2 p q)
    = dense (xarr m c) (warr m c) (((cfg0.win 2).blk t).view.emb (ix2 p q))
  have he : ((cfg0.win 2).blk t).view.emb (ix2 p q)
      = ix2 (⟨1024 * (t.val / 32) + p.val, by omega⟩ : Fin 8192) (⟨1024 * (t.val / 8 % 4) + q.val, by omega⟩ : Fin 4096) := by
    funext a
    apply Fin.ext
    match a with
    | ⟨0, _⟩ => show win0_2.index t (0 : Fin 2) * 1024 + 1 * p.val = 1024 * (t.val / 32) + p.val; rw [e4]; omega
    | ⟨1, _⟩ => show win0_2.index t (1 : Fin 2) * 1024 + 1 * q.val = 1024 * (t.val / 8 % 4) + q.val; rw [e5]; omega
  rw [he, scratch_apply m c t (ix2 p q), h7, zero_add]
  exact run_sum m c (8 * (t.val / 8)) (by omega) p q _ _
    (by show 1024 * (t.val / 32) + p.val = 1024 * (8 * (t.val / 8) / 32) + p.val; omega)
    (by show 1024 * (t.val / 8 % 4) + q.val = 1024 * (8 * (t.val / 8) / 8 % 4) + q.val; omega)

/-- An index of the output array is in point `t`'s block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the output array is in the block some point writes back: that of its row tile and column tile, at the
    last point of the run. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ : ∃ t : Fin cfg0.N, t.val = 8 * ((i 0).val / 1024 * 4 + (i 1).val / 1024) + 7 :=
    ⟨⟨8 * ((i 0).val / 1024 * 4 + (i 1).val / 1024) + 7, by rw [show cfg0.N = 256 from N_0]; omega⟩, rfl⟩
  obtain ⟨-, -, -, -, e4, e5⟩ := idx_facts t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1024 ≤ (i 1).val ∧ (i 1).val < win0_2.index t (1 : Fin 2) * 1024 + 1024
    rw [e5]; omega

/-- THE ARRAY after the run is `dense` of the two argument arrays. -/
theorem final (c : Dev nD) : (dats m 0 c).arrAt 2 cfg0.N = dense (xarr m c) (warr m c) :=
  (dats m 0 c).arrAt_eq_of_cover 2 (dense (xarr m c) (warr m c)) (fun t hf => flushed_eq m c t hf) cover

/-- The kernel's run, read: the result array at `dense` of the arguments, the arguments unchanged. -/
theorem run : θ_run defs (onTc (τ := τ) (main (F := Ideal))) ⟨m, fun _ => 0, ρ⟩ fun r => ∀ c : Dev nD,
      r.2.mem ((c : Thread nD τ).loc main_v0)
        = dense (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.lean ====
/- A binary dense layer: `x · sign(W)ᵀ`, the weights mapped to `2 · round(clamp((w + 1)/2, 0, 1)) - 1` entry by entry.

   The kernel tiles the 8192 × 4096 output in 1024 × 1024 blocks and the 4096 features in eight blocks of 512: each grid
   point maps its weight block, multiplies it with its `x` block into a zero accumulator and adds the product to a scratch
   block that is reset at the first feature block and stored to the output at the last. The reference maps the whole weight
   array (spelling the half as a quotient, and multiplying by one) and contracts the feature axes in one product.
   On the extended reals both are, at `(b, o)`, the sum over the 4096 features `k` of `x (b, k)` times the mapped weight
   `(o, k)`: the narrowings to bf16 are the identity, a quotient by a nonzero real constant is the product with its reciprocal,
   and a sum over 4096 indices is the sum of its eight runs of 512 (Proof/HardSign.lean, Proof/RefValue.lean,
   Proof/Step.lean, Proof/Accumulate.lean, Proof/KernelValue.lean). No finiteness of the inputs is used. The ideal pass rewrote
   nothing, so `preserves` is trivial; the kernels' frames are the generated ones and the reference's is its run. -/
import proofs.«125927_j50861002719489_1_alg».proof.Defs
import proofs.«125927_j50861002719489_1_alg».proof.Proof.Gen.Kernel
import proofs.«125927_j50861002719489_1_alg».proof.Proof.Gen.Kernel.Skeleton
import proofs.«125927_j50861002719489_1_alg».proof.Proof.Gen.Kernel.Launch
import proofs.«125927_j50861002719489_1_alg».proof.Proof.Gen.Kernel.Points
import proofs.«125927_j50861002719489_1_alg».proof.Proof.Gen.Kernel.Frame
import proofs.«125927_j50861002719489_1_alg».proof.Proof.Gen.KernelIdeal
import proofs.«125927_j50861002719489_1_alg».proof.Proof.Gen.KernelIdeal.Skeleton
import proofs.«125927_j50861002719489_1_alg».proof.Proof.Gen.KernelIdeal.Launch
import proofs.«125927_j50861002719489_1_alg».proof.Proof.Gen.KernelIdeal.Points
import proofs.«125927_j50861002719489_1_alg».proof.Proof.Gen.KernelIdeal.Frame
import proofs.«125927_j50861002719489_1_alg».proof.Proof.Gen.ReferenceIdeal
import proofs.«125927_j50861002719489_1_alg».proof.Proof.Gen.KernelIdeal.Value
import proofs.«125927_j50861002719489_1_alg».proof.Proof.Gen.ReferenceIdeal.Run
import proofs.«125927_j50861002719489_1_alg».proof.Proof.Gen.ReferenceIdeal.Read
import proofs.«125927_j50861002719489_1_alg».proof.Proof.Gen.Pre_finite_inputs
import proofs.«125927_j50861002719489_1_alg».proof.Proof.RefValue
import proofs.«125927_j50861002719489_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at `dense` of the argument arrays, which agree. -/
theorem algebraic : Cert.algebraic_KernelIdeal_ReferenceIdeal := by
  intro m ρ m' ρ' _ hagree
  refine ⟨fun c => Cert.BinaryDense.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
